-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x384 : Shape := ⟨2, ![8192, 384]⟩
abbrev S8192x2316 : Shape := ⟨2, ![8192, 2316]⟩
abbrev S384x512 : Shape := ⟨2, ![384, 512]⟩
abbrev S512 : Shape := ⟨1, ![512]⟩
abbrev S512x10 : Shape := ⟨2, ![512, 10]⟩
abbrev S10 : Shape := ⟨1, ![10]⟩
abbrev S10x2316 : Shape := ⟨2, ![10, 2316]⟩
abbrev S2316 : Shape := ⟨1, ![2316]⟩
abbrev S_ : Shape := ⟨0, ![]⟩

class Facts : Prop where
  bcast_S_S8192x384 : S_.BroadcastsInDim S8192x384 (![] : Fin 0 → Fin S8192x384.rank)
  reducesTo_S8192x384_S_d0_1 : S8192x384.ReducesTo [0, 1] S_
  h_S_ : 0 < S_.numel
  bcast_S_S8192x2316 : S_.BroadcastsInDim S8192x2316 (![] : Fin 0 → Fin S8192x2316.rank)
  reducesTo_S8192x2316_S_d0_1 : S8192x2316.ReducesTo [0, 1] S_
  bcast_S_S384x512 : S_.BroadcastsInDim S384x512 (![] : Fin 0 → Fin S384x512.rank)
  reducesTo_S384x512_S_d0_1 : S384x512.ReducesTo [0, 1] S_
  bcast_S_S512 : S_.BroadcastsInDim S512 (![] : Fin 0 → Fin S512.rank)
  reducesTo_S512_S_d0 : S512.ReducesTo [0] S_
  bcast_S_S512x10 : S_.BroadcastsInDim S512x10 (![] : Fin 0 → Fin S512x10.rank)
  reducesTo_S512x10_S_d0_1 : S512x10.ReducesTo [0, 1] S_
  bcast_S_S10 : S_.BroadcastsInDim S10 (![] : Fin 0 → Fin S10.rank)
  reducesTo_S10_S_d0 : S10.ReducesTo [0] S_
  bcast_S_S10x2316 : S_.BroadcastsInDim S10x2316 (![] : Fin 0 → Fin S10x2316.rank)
  reducesTo_S10x2316_S_d0_1 : S10x2316.ReducesTo [0, 1] S_
  bcast_S_S2316 : S_.BroadcastsInDim S2316 (![] : Fin 0 → Fin S2316.rank)
  reducesTo_S2316_S_d0 : S2316.ReducesTo [0] S_

variable [Facts]

def fn_part2 {F : FTy → Type} [FloatOps F] (main_arg7 : FVec F S2316 .f32) (main_v33 : IVec S_ 1) : IVec S_ 1 :=
  let main_v34 : FVec F S2316 .f32 := Host.absf main_arg7
  let main_cst_12 : FVec F S_ .f32 := constant S_ .f32 0x7F800000#32
  let main_v35 : FVec F S2316 .f32 := broadcastInDim S2316 ![] bcast_S_S2316 main_cst_12
  let main_v36 : IVec S2316 1 := cmpf .olt main_v34 main_v35
  let main_c_13 : IVec S_ 1 := constantI S_ 1 1#1
  let main_v37 : IVec S_ 1 := (fun x v => Host.reduce IntOp.andi x v reducesTo_S2316_S_d0 h_S_) main_v36 main_c_13
  let main_v38 : IVec S_ 1 := andi main_v33 main_v37
  main_v38

def fn_part1 {F : FTy → Type} [FloatOps F] (main_arg4 : FVec F S512x10 .f32) (main_arg5 : FVec F S10 .f32) (main_arg6 : FVec F S10x2316 .f32) (main_arg7 : FVec F S2316 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x10 .f32 := Host.absf main_arg4
  let main_cst_6 : FVec F S_ .f32 := constant S_ .f32 0x7F800000#32
  let main_v20 : FVec F S512x10 .f32 := broadcastInDim S512x10 ![] bcast_S_S512x10 main_cst_6
  let main_v21 : IVec S512x10 1 := cmpf .olt main_v19 main_v20
  let main_c_7 : IVec S_ 1 := constantI S_ 1 1#1
  let main_v22 : IVec S_ 1 := (fun x v => Host.reduce IntOp.andi x v reducesTo_S512x10_S_d0_1 h_S_) main_v21 main_c_7
  let main_v23 : IVec S_ 1 := andi main_v18 main_v22
  let main_v24 : FVec F S10 .f32 := Host.absf main_arg5
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x2316 .f32 := Host.absf main_arg6
  let main_cst_10 : FVec F S_ .f32 := constant S_ .f32 0x7F800000#32
  let main_v30 : FVec F S10x2316 .f32 := broadcastInDim S10x2316 ![] bcast_S_S10x2316 main_cst_10
  let main_v31 : IVec S10x2316 1 := cmpf .olt main_v29 main_v30
  let main_c_11 : IVec S_ 1 := constantI S_ 1 1#1
  let main_v32 : IVec S_ 1 := (fun x v => Host.reduce IntOp.andi x v reducesTo_S10x2316_S_d0_1 h_S_) main_v31 main_c_11
  let main_v33 : IVec S_ 1 := andi main_v28 main_v32
  fn_part2 (F := F) main_arg7 main_v33

def fn {F : FTy → Type} [FloatOps F] (main_arg0 : FVec F S8192x384 .f32) (main_arg1 : FVec F S8192x2316 .f32) (main_arg2 : FVec F S384x512 .f32) (main_arg3 : FVec F S512 .f32) (main_arg4 : FVec F S512x10 .f32) (main_arg5 : FVec F S10 .f32) (main_arg6 : FVec F S10x2316 .f32) (main_arg7 : FVec F S2316 .f32) : IVec S_ 1 :=
  let main_v0 : FVec F S8192x384 .f32 := Host.absf main_arg0
  let main_cst : FVec F S_ .f32 := constant S_ .f32 0x7F800000#32
  let main_v1 : FVec F S8192x384 .f32 := broadcastInDim S8192x384 ![] bcast_S_S8192x384 main_cst
  let main_v2 : IVec S8192x384 1 := cmpf .olt main_v0 main_v1
  let main_c : IVec S_ 1 := constantI S_ 1 1#1
  let main_v3 : IVec S_ 1 := (fun x v => Host.reduce IntOp.andi x v reducesTo_S8192x384_S_d0_1 h_S_) main_v2 main_c
  let main_v4 : FVec F S8192x2316 .f32 := Host.absf main_arg1
  let main_cst_0 : FVec F S_ .f32 := constant S_ .f32 0x7F800000#32
  let main_v5 : FVec F S8192x2316 .f32 := broadcastInDim S8192x2316 ![] bcast_S_S8192x2316 main_cst_0
  let main_v6 : IVec S8192x2316 1 := cmpf .olt main_v4 main_v5
  let main_c_1 : IVec S_ 1 := constantI S_ 1 1#1
  let main_v7 : IVec S_ 1 := (fun x v => Host.reduce IntOp.andi x v reducesTo_S8192x2316_S_d0_1 h_S_) main_v6 main_c_1
  let main_v8 : IVec S_ 1 := andi main_v3 main_v7
  let main_v9 : FVec F S384x512 .f32 := Host.absf main_arg2
  let main_cst_2 : FVec F S_ .f32 := constant S_ .f32 0x7F800000#32
  let main_v10 : FVec F S384x512 .f32 := broadcastInDim S384x512 ![] bcast_S_S384x512 main_cst_2
  let main_v11 : IVec S384x512 1 := cmpf .olt main_v9 main_v10
  let main_c_3 : IVec S_ 1 := constantI S_ 1 1#1
  let main_v12 : IVec S_ 1 := (fun x v => Host.reduce IntOp.andi x v reducesTo_S384x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S8192x384 : Shape := ⟨2, ![8192, 384]⟩
abbrev S8192x2316 : Shape := ⟨2, ![8192, 2316]⟩
abbrev S384x512 : Shape := ⟨2, ![384, 512]⟩
abbrev S512 : Shape := ⟨1, ![512]⟩
abbrev S512x10 : Shape := ⟨2, ![512, 10]⟩
abbrev S10 : Shape := ⟨1, ![10]⟩
abbrev S10x2316 : Shape := ⟨2, ![10, 2316]⟩
abbrev S2316 : Shape := ⟨1, ![2316]⟩
abbrev S1x512 : Shape := ⟨2, ![1, 512]⟩
abbrev S1x10 : Shape := ⟨2, ![1, 10]⟩
abbrev S1x2316 : Shape := ⟨2, ![1, 2316]⟩
abbrev S512x384 : Shape := ⟨2, ![512, 384]⟩
abbrev S512x2316 : Shape := ⟨2, ![512, 2316]⟩
abbrev S512x512 : Shape := ⟨2, ![512, 512]⟩

abbrev nBuf : Space → Nat
  | .hbm => 15
  | .vmem => 12
  | .smem => 0
  | _ => 0

abbrev bufTy : (tb : Table) → Fin (tcTables nBuf tb) → BufTy
  | .hbm, ⟨0, _⟩ => ⟨S8192x384, .f32⟩
  | .hbm, ⟨1, _⟩ => ⟨S8192x2316, .f32⟩
  | .hbm, ⟨2, _⟩ => ⟨S384x512, .f32⟩
  | .hbm, ⟨3, _⟩ => ⟨S512, .f32⟩
  | .hbm, ⟨4, _⟩ => ⟨S512x10, .f32⟩
  | .hbm, ⟨5, _⟩ => ⟨S10, .f32⟩
  | .hbm, ⟨6, _⟩ => ⟨S10x2316, .f32⟩
  | .hbm, ⟨7, _⟩ => ⟨S2316, .f32⟩
  | .hbm, ⟨8, _⟩ => ⟨S384x512, .bf16⟩
  | .hbm, ⟨9, _⟩ => ⟨S512x10, .bf16⟩
  | .hbm, ⟨10, _⟩ => ⟨S10x2316, .bf16⟩
  | .hbm, ⟨11, _⟩ => ⟨S1x512, .f32⟩
  | .hbm, ⟨12, _⟩ => ⟨S1x10, .f32⟩
  | .hbm, ⟨13, _⟩ => ⟨S1x2316, .f32⟩
  | .hbm, ⟨14, _⟩ => ⟨S8192x2316, .f32⟩
  | .local _ .vmem, ⟨0, _⟩ => ⟨S512x384, .f32⟩
  | .local _ .vmem, ⟨1, _⟩ => ⟨S512x384, .f32⟩
  | .local _ .vmem, ⟨2, _⟩ => ⟨S384x512, .bf16⟩
  | .local _ .vmem, ⟨3, _⟩ => ⟨S1x512, .f32⟩
  | .local _ .vmem, ⟨4, _⟩ => ⟨S512x10, .bf16⟩
  | .local _ .vmem, ⟨5, _⟩ => ⟨S1x10, .f32⟩
  | .local _ .vmem, ⟨6, _⟩ => ⟨S10x2316, .bf16⟩
  | .local _ .vmem, ⟨7, _⟩ => ⟨S1x2316, .f32⟩
  | .local _ .vmem, ⟨8, _⟩ => ⟨S512x2316, .f32⟩
  | .local _ .vmem, ⟨9, _⟩ => ⟨S512x2316, .f32⟩
  | .local _ .vmem, ⟨10, _⟩ => ⟨S512x2316, .f32⟩
  | .local _ .vmem, ⟨11, _⟩ => ⟨S512x2316, .f32⟩
  | _, _ => ⟨S8192x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x10 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x2316 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2316 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2316 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2316 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S512_S1x512 : S512.ShapeCasts S1x512
  shapeCasts_S10_S1x10 : S10.ShapeCasts S1x10
  shapeCasts_S2316_S1x2316 : S2316.ShapeCasts S1x2316
  inb_S512x384_S512x384_0_0 : ∀ a, (![0, 0] : Fin 2 → Nat) a + S512x384.size a ≤ S512x384.size a
  h_S512x384 : 0 < S512x384.numel
  inb_S384x512_S384x512_0_0 : ∀ a, (![0, 0] : Fin 2 → Nat) a + S384x512.size a ≤ S384x512.size a
  h_S384x512 : 0 < S384x512.numel
  shapeCasts_S384x512_S384x512 : S384x512.ShapeCasts S384x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  inb_S10x2316_S10x2316_0_0 : ∀ a, (![0, 0] : Fin 2 → Nat) a + S10x2316.size a ≤ S10x2316.size a
  h_S10x2316 : 0 < S10x2316.numel
  shapeCasts_S10x2316_S10x2316 : S10x2316.ShapeCasts S10x2316
  inb_S1x2316_S1x2316_0_0 : ∀ a, (![0, 0] : Fin 2 → Nat) a + S1x2316.size a ≤ S1x2316.size a
  h_S1x2316 : 0 < S1x2316.numel
  shapeCasts_S1x2316_S1x2316 : S1x2316.ShapeCasts S1x2316
  broadcasts_S1x2316_S512x2316 : S1x2316.Broadcasts S512x2316
  inb_S512x2316_S512x2316_0_0 : ∀ a, (![0, 0] : Fin 2 → Nat) a + S512x2316.size a ≤ S512x2316.size a
  h_S512x2316 : 0 < S512x2316.numel
  dot_S512x384_S384x512_S512x512_1_0_0_1_n_n_wf : DotDims.WF S512x384 S384x512 S512x512 [1] [0] [0] [1] [] []
  dot_S512x512_S512x10_S512x10_1_0_0_1_n_n_wf : DotDims.WF S512x512 S512x10 S512x10 [1] [0] [0] [1] [] []
  dot_S512x10_S10x2316_S512x2316_1_0_0_1_n_n_wf : DotDims.WF S512x10 S10x2316 S512x2316 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x384.size a ≤ S8192x384.size a
  hwx0_0 : ∀ i : grid0.Coords, EltTy.bits .f32 = 32 ∨ (Rect.block (s := S8192x384) S512x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x512.size a ≤ S384x512.size a
  hwx0_1 : ∀ i : grid0.Coords, EltTy.bits .bf16 = 32 ∨ (Rect.block (s := S384x512) S384x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x10.size a ≤ S512x10.size a
  hwx0_3 : ∀ i : grid0.Coords, EltTy.bits .bf16 = 32 ∨ (Rect.block (s := S512x10) S512x10.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x2316.size a ≤ S10x2316.size a
  hwx0_5 : ∀ i : grid0.Coords, EltTy.bits .bf16 = 32 ∨ (Rect.block (s := S10x2316) S10x2316.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2316.size a ≤ S1x2316.size a
  hwx0_6 : ∀ i : grid0.Coords, EltTy.bits .f32 = 32 ∨ (Rect.block (s := S1x2316) S1x2316.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x2316.size a ≤ S8192x2316.size a
  hwx0_7 : ∀ i : grid0.Coords, EltTy.bits .f32 = 32 ∨ (Rect.block (s := S8192x2316) S512x2316.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x2316.size a ≤ S8192x2316.size a
  hwx0_8 : ∀ i : grid0.Coords, EltTy.bits .f32 = 32 ∨ (Rect.block (s := S8192x2316) S512x2316.size (cc0_transform_8 i) (hinb0_8 i)).WholeWords (EltTy.packing .f32)

variable [Facts₀]

def dot_S512x384_S384x512_S512x512_1_0_0_1_n_n : DotDims S512x384 S384x512 S512x512 where
  lhsContracting := [1]
  rhsContracting := [0]
  lhsNonContracting := [0]
  rhsNonContracting := [1]
  lhsBatch := []
  rhsBatch := []
  wf := dot_S512x384_S384x512_S512x512_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf
def dot_S512x10_S10x2316_S512x2316_1_0_0_1_n_n : DotDims S512x10 S10x2316 S512x2316 where
  lhsContracting := [1]
  rhsContracting := [0]
  lhsNonContracting := [0]
  rhsNonContracting := [1]
  lhsBatch := []
  rhsBatch := []
  wf := dot_S512x10_S10x2316_S512x2316_1_0_0_1_n_n_wf

abbrev win0_0 : Pipeline.Window sig grid0 :=
  Pipeline.Window.ofSpec (Memref.whole main_arg0) S512x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S384x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S10x2316.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x2316.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S512x2316.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S512x2316.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x384 : Shape := ⟨2, ![8192, 384]⟩
abbrev S8192x2316 : Shape := ⟨2, ![8192, 2316]⟩
abbrev S384x512 : Shape := ⟨2, ![384, 512]⟩
abbrev S512 : Shape := ⟨1, ![512]⟩
abbrev S512x10 : Shape := ⟨2, ![512, 10]⟩
abbrev S10 : Shape := ⟨1, ![10]⟩
abbrev S10x2316 : Shape := ⟨2, ![10, 2316]⟩
abbrev S2316 : Shape := ⟨1, ![2316]⟩
abbrev S8192x512 : Shape := ⟨2, ![8192, 512]⟩
abbrev S1x512 : Shape := ⟨2, ![1, 512]⟩
abbrev S_ : Shape := ⟨0, ![]⟩
abbrev S8192x10 : Shape := ⟨2, ![8192, 10]⟩
abbrev S1x10 : Shape := ⟨2, ![1, 10]⟩
abbrev S1x2316 : Shape := ⟨2, ![1, 2316]⟩

abbrev nBuf : Space → Nat
  | .hbm => 27
  | .vmem => 0
  | .smem => 0
  | _ => 0

abbrev bufTy : (tb : Table) → Fin (tcTables nBuf tb) → BufTy
  | .hbm, ⟨0, _⟩ => ⟨S8192x384, .f32⟩
  | .hbm, ⟨1, _⟩ => ⟨S8192x2316, .f32⟩
  | .hbm, ⟨2, _⟩ => ⟨S384x512, .f32⟩
  | .hbm, ⟨3, _⟩ => ⟨S512, .f32⟩
  | .hbm, ⟨4, _⟩ => ⟨S512x10, .f32⟩
  | .hbm, ⟨5, _⟩ => ⟨S10, .f32⟩
  | .hbm, ⟨6, _⟩ => ⟨S10x2316, .f32⟩
  | .hbm, ⟨7, _⟩ => ⟨S2316, .f32⟩
  | .hbm, ⟨8, _⟩ => ⟨S8192x512, .f32⟩
  | .hbm, ⟨9, _⟩ => ⟨S1x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x10, .f32⟩
  | .hbm, ⟨16, _⟩ => ⟨S1x10, .f32⟩
  | .hbm, ⟨17, _⟩ => ⟨S8192x10, .f32⟩
  | .hbm, ⟨18, _⟩ => ⟨S8192x10, .f32⟩
  | .hbm, ⟨19, _⟩ => ⟨S_, .f32⟩
  | .hbm, ⟨20, _⟩ => ⟨S8192x10, .f32⟩
  | .hbm, ⟨21, _⟩ => ⟨S8192x10, .f32⟩
  | .hbm, ⟨22, _⟩ => ⟨S8192x2316, .f32⟩
  | .hbm, ⟨23, _⟩ => ⟨S1x2316, .f32⟩
  | .hbm, ⟨24, _⟩ => ⟨S8192x2316, .f32⟩
  | .hbm, ⟨25, _⟩ => ⟨S8192x2316, .f32⟩
  | .hbm, ⟨26, _⟩ => ⟨S8192x2316, .f32⟩
  | _, _ => ⟨S8192x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  bcast_S_S8192x10 : S_.BroadcastsInDim S8192x10 (![] : Fin 0 → Fin S8192x10.rank)
  bcast_S2316_S1x2316_1 : S2316.BroadcastsInDim S1x2316 (![1] : Fin 1 → Fin S1x2316.rank)
  bcast_S1x2316_S8192x2316_0_1 : S1x2316.BroadcastsInDim S8192x2316 (![0, 1] : Fin 2 → Fin S8192x2316.rank)
  dot_S8192x384_S384x512_S8192x512_1_0_0_1_n_n_wf : DotDims.WF S8192x384 S384x512 S8192x512 [1] [0] [0] [1] [] []
  dot_S8192x512_S512x10_S8192x10_1_0_0_1_n_n_wf : DotDims.WF S8192x512 S512x10 S8192x10 [1] [0] [0] [1] [] []
  dot_S8192x10_S10x2316_S8192x2316_1_0_0_1_n_n_wf : DotDims.WF S8192x10 S10x2316 S8192x2316 [1] [0] [0] [1] [] []

variable [Facts₀]

def dot_S8192x384_S384x512_S8192x512_1_0_0_1_n_n : DotDims S8192x384 S384x512 S8192x512 where
  lhsContracting := [1]
  rhsContracting := [0]
  lhsNonContracting := [0]
  rhsNonContracting := [1]
  lhsBatch := []
  rhsBatch := []
  wf := dot_S8192x384_S384x512_S8192x512_1_0_0_1_n_n_wf
def dot_S8192x512_S512x10_S8192x10_1_0_0_1_n_n : DotDims S8192x512 S512x10 S8192x10 where
  lhsContracting := [1]
  rhsContracting := [0]
  lhsNonContracting := [0]
  rhsNonContracting := [1]
  lhsBatch := []
  rhsBatch := []
  wf := dot_S8192x512_S512x10_S8192x10_1_0_0_1_n_n_wf
def dot_S8192x10_S10x2316_S8192x2316_1_0_0_1_n_n : DotDims S8192x10 S10x2316 S8192x2316 where
  lhsContracting := [1]
  rhsContracting := [0]
  lhsNonContracting := [0]
  rhsNonContracting := [1]
  lhsBatch := []
  rhsBatch := []
  wf := dot_S8192x10_S10x2316_S8192x2316_1_0_0_1_n_n_wf

class Facts : Prop extends Facts₀ where

variable [Facts]
-- ==== Proof.RowSpec.lean ====
/-
  What one row of the result is, as a function of that row of the input, that row of the mask, and the
  weights: a three-layer perceptron with rectified hidden layers, then a mask.

  For a row `xr` of 384 inputs,
    hiddenUnit l     = max (∑ d, xr d · W1 d l + b1 l) 0              (512 units)
    bottleneckUnit k = max (∑ l, hiddenUnit l · W2 l k + b2 k) 0     (10 units)
    headOut j        = (∑ k, bottleneckUnit k · Wh k j + bh j) · mr j (2316 heads, `mr` the row of the mask)
  on the extended reals. Every sum runs over one fixed index type in one fixed order of factors, so the two
  programs compared against this function need no law of arithmetic beyond `0 + a = a`: no sum is reordered,
  no factor is moved across a sum, and nothing here asks the inputs to be finite.

  `result` is the whole [8192, 2316] array: entry (r, j) is `headOut` of row r of `x` and row r of the mask at j.
-/
import Idealize.ShloMosaic.PureOps.Ideal
import Idealize.ShloMosaic.Lib.ValueIdx

noncomputable section

namespace Cert.RowSpec

open Idealize.ShloMosaic Idealize.ShloMosaic.ValueIdx

/-- Unit `l` of the first hidden layer of a row: the rectified affine image of the row under `W1`, `b1`. -/
def hiddenUnit (xr : Fin 384 → EReal) (W1 : Fin 384 → Fin 512 → EReal) (b1 : Fin 512 → EReal) (l : Fin 512) : EReal :=
  max ((∑ d : Fin 384, xr d * W1 d l) + b1 l) 0

/-- Unit `k` of the ten-wide bottleneck: the rectified affine image of the hidden layer under `W2`, `b2`. -/
def bottleneckUnit (xr : Fin 384 → EReal) (W1 : Fin 384 → Fin 512 → EReal) (b1 : Fin 512 → EReal)
    (W2 : Fin 512 → Fin 10 → EReal) (b2 : Fin 10 → EReal) (k : Fin 10) : EReal :=
  max ((∑ l : Fin 512, hiddenUnit xr W1 b1 l * W2 l k) + b2 k) 0

/-- Head `j` of a row: the affine image of the bottleneck under column `j` of `Wh` and `bh j`, times the row's mask at `j`. -/
def headOut (xr : Fin 384 → EReal) (W1 : Fin 384 → Fin 512 → EReal) (b1 : Fin 512 → EReal)
    (W2 : Fin 512 → Fin 10 → EReal) (b2 : Fin 10 → EReal) (Wh : Fin 10 → Fin 2316 → EReal) (bh : Fin 2316 → EReal)
    (mr : Fin 2316 → EReal) (j : Fin 2316) : EReal :=
  ((∑ k : Fin 10, bottleneckUnit xr W1 b1 W2 b2 k * Wh k j) + bh j) * mr j

/-- The whole result array from the eight argument arrays, index by index: entry (r, j) is head `j` of row `r`. -/
def result (x : (⟨2, ![8192, 384]⟩ : Shape).Idx → EReal) (mask : (⟨2, ![8192, 2316]⟩ : Shape).Idx → EReal)
    (W1 : (⟨2, ![384, 512]⟩ : Shape).Idx → EReal) (b1 : (⟨1, ![512]⟩ : Shape).Idx → EReal)
    (W2 : (⟨2, ![512, 10]⟩ : Shape).Idx → EReal) (b2 : (⟨1, ![10]⟩ : Shape).Idx → EReal)
    (Wh : (⟨2, ![10, 2316]⟩ : Shape).Idx → EReal) (bh : (⟨1, ![2316]⟩ : Shape).Idx → EReal) :
    (⟨2, ![8192, 2316]⟩ : Shape).Idx → EReal :=
  fun i => headOut (fun d => x (ix2 (i 0 : Fin 8192) d)) (fun d l => W1 (ix2 d l)) (fun l => b1 (ix1 l))
    (fun l k => W2 (ix2 l k)) (fun k => b2 (ix1 k)) (fun k j => Wh (ix2 k j)) (fun j => bh (ix1 j))
    (fun j => mask (ix2 (i 0 : Fin 8192) j)) (i 1 : Fin 2316)

/-- The same entry with the row and the head given as coordinates. -/
theorem result_ix2 (x : (⟨2, ![8192, 384]⟩ : Shape).Idx → EReal) (mask : (⟨2, ![8192, 2316]⟩ : Shape).Idx → EReal)
    (W1 : (⟨2, ![384, 512]⟩ : Shape).Idx → EReal) (b1 : (⟨1, ![512]⟩ : Shape).Idx → EReal)
    (W2 : (⟨2, ![512, 10]⟩ : Shape).Idx → EReal) (b2 : (⟨1, ![10]⟩ : Shape).Idx → EReal)
    (Wh : (⟨2, ![10, 2316]⟩ : Shape).Idx → EReal) (bh : (⟨1, ![2316]⟩ : Shape).Idx → EReal) (r : Fin 8192) (j : Fin 2316) :
    result x mask W1 b1 W2 b2 Wh bh (ix2 r j)
      = headOut (fun d => x (ix2 r d)) (fun d l => W1 (ix2 d l)) (fun l => b1 (ix1 l))
          (fun l k => W2 (ix2 l k)) (fun k => b2 (ix1 k)) (fun k j => Wh (ix2 k j)) (fun j => bh (ix1 j))
          (fun j => mask (ix2 r j)) j := rfl

end Cert.RowSpec

end
-- ==== Proof.LibPlainMatmul.lean ====
/-
  A plain matrix product, rows × contraction by contraction × columns, read at an entry.

  For the dimension numbers `DotDims.plain M K N` (contract the left operand's axis 1 with the right operand's
  axis 0; no batch axis) at the exact extended-real values, entry (p, n) of a product accumulated into the zero
  splat is the sum over k : Fin K of a (p, k) · b (k, n), whatever the three extents: at result index (p, n) and
  contraction coordinate k the left operand is read at (p, k) and the right at (k, n). A product into a zero
  accumulator and a host product with no accumulator are then the same sum, in the same order of terms.

  A printed dimension record with these six lists IS `DotDims.plain` at its extents (the record's remaining
  field is a proof), so these lemmas apply to it as they stand.
-/
import Idealize.ShloMosaic.PureOps.Ideal.Laws
import Idealize.ShloMosaic.Lib.ValueIdx

noncomputable section

namespace PlainMatmul

open Idealize.ShloMosaic Idealize.ShloMosaic.ValueIdx

variable {M K N : Nat}

/-- The contraction shape of a plain product has one axis, of extent `K`: its indices are `Fin K`. -/
abbrev contrFin (M K N : Nat) : (DotDims.plain M K N).contr.Idx ≃ Fin K :=
  contrEquiv1 (DotDims.plain M K N) K rfl rfl

/-- At result index (p, n) and contraction coordinate k the left operand is read at (p, k). -/
theorem lhsIdx_eq (p : Fin M) (n : Fin N) (k : Fin K) :
    (DotDims.plain M K N).lhsIdx (ix2 p n) ((contrFin M K N).symm k) = ix2 p k := by
  funext a
  apply Fin.ext
  match a with
  | ⟨0, _⟩ => rfl
  | ⟨1, _⟩ =>
    exact ((DotDims.plain M K N).lhsIdx_val_of_single rfl (ix2 p n) ((contrFin M K N).symm k)).trans
      (contrEquiv1_symm_val (DotDims.plain M K N) K rfl rfl k)

/-- At result index (p, n) and contraction coordinate k the right operand is read at (k, n). -/
theorem rhsIdx_eq (p : Fin M) (n : Fin N) (k : Fin K) :
    (DotDims.plain M K N).rhsIdx (ix2 p n) ((contrFin M K N).symm k) = ix2 k n := by
  funext a
  apply Fin.ext
  match a with
  | ⟨0, _⟩ =>
    exact ((DotDims.plain M K N).rhsIdx_val_of_single rfl (ix2 p n) ((contrFin M K N).symm k)).trans
      (contrEquiv1_symm_val (DotDims.plain M K N) K rfl rfl k)
  | ⟨1, _⟩ => rfl

/-- A plain product accumulated into the zero splat, at entry (p, n): the sum over the contracted axis of the
    products of the operands' entries. -/
theorem matmul_zero_apply {φ₁ φ₂ : FTy} (prec : Option ContractPrecision)
    (a : FVec Ideal ⟨2, ![M, K]⟩ φ₁) (b : FVec Ideal ⟨2, ![K, N]⟩ φ₂) (p : Fin M) (n : Fin N) :
    FloatOps.matmul (DotDims.plain M K N) prec a b (constant (F := Ideal) ⟨2, ![M, N]⟩ .f32 0x00000000#32) (ix2 p n)
      = ∑ k : Fin K, a (ix2 p k) * b (ix2 k n) := by
  rw [Ideal.matmul_constant_zero_apply, ← Equiv.sum_comp (contrFin M K N).symm]
  refine Finset.sum_congr rfl fun k _ => ?_
  rw [lhsIdx_eq, rhsIdx_eq]

/-- The host's plain product (no accumulator) at entry (p, n): the same sum. -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (n : Fin N) :
    FloatOps.dotGeneral (DotDims.plain M K N) prec sched a b (ix2 p n) = ∑ k : Fin K, a (ix2 p k) * b (ix2 k n) := by
  rw [Ideal.dotGeneral_apply, ← Equiv.sum_comp (contrFin M K N).symm]
  refine Finset.sum_congr rfl fun k _ => ?_
  rw [lhsIdx_eq, rhsIdx_eq]

end PlainMatmul

end
-- ==== Proof.BlockValue.lean ====
/-
  What the kernel body stores, entry by entry, at the exact extended-real values.

  The body loads a 512-row block of the input and of the mask and the whole weight and bias arrays, and stores one
  512 × 2316 value. Changing a float format is the identity on extended reals, so the three products the body
  feeds with narrowed operands are products of the operands themselves; each is accumulated into the zero splat, so
  its entry (p, n) is the plain sum over the contracted axis. A bias held as one row and broadcast down the rows
  is, at (p, n), the row's entry n; the rectifier is the maximum with the zero word. So entry (p, q) of the stored
  value is `RowSpec.headOut` of row p of the input block and row p of the mask block at head q.
-/
import proofs.«414936_j89283780149841_3_alg».proof.Proof.Gen.KernelIdeal.Skeleton
import proofs.«414936_j89283780149841_3_alg».proof.Proof.RowSpec
import proofs.«414936_j89283780149841_3_alg».proof.Proof.LibPlainMatmul
import Idealize.ShloMosaic.Lib.Pipeline.Value
import Idealize.ShloMosaic.Lib.ValueLayout

noncomputable section

namespace Cert.KernelIdeal.BlockValue

open Cert.KernelIdeal Cert.KernelIdeal.Gen Idealize.ShloMosaic Idealize.ShloMosaic.ValueIdx Cert.RowSpec

/-- The three printed dimension records are plain products at their extents. -/
theorem dot1_plain : dot_S512x384_S384x512_S512x512_1_0_0_1_n_n = DotDims.plain 512 384 512 := rfl
theorem dot2_plain : dot_S512x512_S512x10_S512x10_1_0_0_1_n_n = DotDims.plain 512 512 10 := rfl
theorem dot3_plain : dot_S512x10_S10x2316_S512x2316_1_0_0_1_n_n = DotDims.plain 512 10 2316 := rfl

/-- The zero word is the extended real 0, as the scalar a rectifier compares with. -/
theorem zero_word : Scalar.ofBits (F := Ideal) .f32 0x00000000#32 = (0 : EReal) := Ideal.ofBits_zero_f32

variable (v0 : FVec Ideal S512x384 .f32) (v1 : FVec Ideal S384x512 .bf16) (v5 : FVec Ideal S1x512 .f32)
  (v11 : FVec Ideal S512x10 .bf16) (v15 : FVec Ideal S1x10 .f32) (v21 : FVec Ideal S10x2316 .bf16)
  (v25 : FVec Ideal S1x2316 .f32) (v29 : FVec Ideal S512x2316 .f32)

/-- The block's first rectified layer: 512 rows of 512 hidden units. -/
def hiddenBlock : FVec Ideal S512x512 .f32 :=
  maximumf (addf (matmul dot_S512x384_S384x512_S512x512_1_0_0_1_n_n none (truncf .bf16 v0 bitsLt_bf16_f32)
      (shapeCast S384x512 v1 shapeCasts_S384x512_S384x512) (constant S512x512 .f32 0x00000000#32))
    (broadcastTo S512x512 (shapeCast S1x512 v5 shapeCasts_S1x512_S1x512) broadcasts_S1x512_S512x512))
    (broadcast S512x512 (Scalar.ofBits .f32 0x00000000#32))

/-- The block's second rectified layer: 512 rows of 10 bottleneck units. -/
def bottleneckBlock : FVec Ideal S512x10 .f32 :=
  maximumf (addf (matmul dot_S512x512_S512x10_S512x10_1_0_0_1_n_n none (truncf .bf16 (hiddenBlock v0 v1 v5) bitsLt_bf16_f32)
      (shapeCast S512x10 v11 shapeCasts_S512x10_S512x10) (constant S512x10 .f32 0x00000000#32))
    (broadcastTo S512x10 (shapeCast S1x10 v15 shapeCasts_S1x10_S1x10) broadcasts_S1x10_S512x10))
    (broadcast S512x10 (Scalar.ofBits .f32 0x00000000#32))

/-- The stored value is the masked third layer over those two. -/
theorem pay_eq : k0_pay1 (F := Ideal) v0 v1 v5 v11 v15 v21 v25 v29
    = mulf (addf (matmul dot_S512x10_S10x2316_S512x2316_1_0_0_1_n_n none (truncf .bf16 (bottleneckBlock v0 v1 v5 v11 v15) bitsLt_bf16_f32)
        (shapeCast S10x2316 v21 shapeCasts_S10x2316_S10x2316) (constant S512x2316 .f32 0x00000000#32))
      (broadcastTo S512x2316 (shapeCast S1x2316 v25 shapeCasts_S1x2316_S1x2316) broadcasts_S1x2316_S512x2316)) v29 := rfl

/-- Entry (p, l) of the first layer is hidden unit `l` of row `p` of the input block. -/
theorem hiddenBlock_at (p : Fin 512) (l : Fin 512) :
    hiddenBlock v0 v1 v5 (ix2 p l)
      = hiddenUnit (fun d => v0 (ix2 p d)) (fun d l => v1 (ix2 d l)) (fun l => v5 (ix2 (0 : Fin 1) l)) l := by
  unfold hiddenBlock hiddenUnit
  rw [maximumf_apply, addf_apply, broadcast_apply, zero_word, shapeCast_self, shapeCast_self,
    broadcastTo_1b_ab_apply]
  simp only [matmul]
  rw [dot1_plain, PlainMatmul.matmul_zero_apply]
  rfl

/-- Entry (p, k) of the second layer is bottleneck unit `k` of row `p`. -/
theorem bottleneckBlock_at (p : Fin 512) (k : Fin 10) :
    bottleneckBlock v0 v1 v5 v11 v15 (ix2 p k)
      = bottleneckUnit (fun d => v0 (ix2 p d)) (fun d l => v1 (ix2 d l)) (fun l => v5 (ix2 (0 : Fin 1) l))
          (fun l k => v11 (ix2 l k)) (fun k => v15 (ix2 (0 : Fin 1) k)) k := by
  unfold bottleneckBlock bottleneckUnit
  rw [maximumf_apply, addf_apply, broadcast_apply, zero_word, shapeCast_self, shapeCast_self,
    broadcastTo_1b_ab_apply]
  simp only [matmul]
  rw [dot2_plain, PlainMatmul.matmul_zero_apply]
  refine congrArg (fun s => max (s + v15 (ix2 (0 : Fin 1) k)) 0) (Finset.sum_congr rfl fun l _ => ?_)
  rw [truncf_apply, hiddenBlock_at]

/-- Entry (p, q) of the stored value is head `q` of row `p` of the input block and row `p` of the mask block. -/
theorem pay_at (p : Fin 512) (q : Fin 2316) :
    k0_pay1 (F := Ideal) v0 v1 v5 v11 v15 v21 v25 v29 (ix2 p q)
      = headOut (fun d => v0 (ix2 p d)) (fun d l => v1 (ix2 d l)) (fun l => v5 (ix2 (0 : Fin 1) l))
          (fun l k => v11 (ix2 l k)) (fun k => v15 (ix2 (0 : Fin 1) k)) (fun k j => v21 (ix2 k j))
          (fun j => v25 (ix2 (0 : Fin 1) j)) (fun j => v29 (ix2 p j)) q := by
  rw [pay_eq]
  unfold headOut
  rw [mulf_apply, addf_apply, shapeCast_self, shapeCast_self, broadcastTo_1b_ab_apply]
  simp only [matmul]
  rw [dot3_plain, PlainMatmul.matmul_zero_apply]
  refine congrArg (fun s => (s + v25 (ix2 (0 : Fin 1) q)) * v29 (ix2 p q)) (Finset.sum_congr rfl fun k _ => ?_)
  rw [truncf_apply, bottleneckBlock_at]

/-- If row `p` of the loaded input and mask blocks is row `r` of two arrays, and the loaded weights and one-row
    biases are the entries of six more, then entry (p, q) of the stored value is entry (r, q) of `RowSpec.result`
    of the eight arrays. -/
theorem block_entry (X : (⟨2, ![8192, 384]⟩ : Shape).Idx → EReal) (Mk : (⟨2, ![8192, 2316]⟩ : Shape).Idx → EReal)
    (W1 : (⟨2, ![384, 512]⟩ : Shape).Idx → EReal) (b1 : (⟨1, ![512]⟩ : Shape).Idx → EReal)
    (W2 : (⟨2, ![512, 10]⟩ : Shape).Idx → EReal) (b2 : (⟨1, ![10]⟩ : Shape).Idx → EReal)
    (Wh : (⟨2, ![10, 2316]⟩ : Shape).Idx → EReal) (bh : (⟨1, ![2316]⟩ : Shape).Idx → EReal)
    (r : Fin 8192) (p : Fin 512)
    (h0 : ∀ d : Fin 384, v0 (ix2 p d) = X (ix2 r d))
    (h1 : ∀ (d : Fin 384) (l : Fin 512), v1 (ix2 d l) = W1 (ix2 d l))
    (h5 : ∀ l : Fin 512, v5 (ix2 (0 : Fin 1) l) = b1 (ix1 l))
    (h11 : ∀ (l : Fin 512) (k : Fin 10), v11 (ix2 l k) = W2 (ix2 l k))
    (h15 : ∀ k : Fin 10, v15 (ix2 (0 : Fin 1) k) = b2 (ix1 k))
    (h21 : ∀ (k : Fin 10) (j : Fin 2316), v21 (ix2 k j) = Wh (ix2 k j))
    (h25 : ∀ j : Fin 2316, v25 (ix2 (0 : Fin 1) j) = bh (ix1 j))
    (h29 : ∀ j : Fin 2316, v29 (ix2 p j) = Mk (ix2 r j)) (q : Fin 2316) :
    k0_pay1 (F := Ideal) v0 v1 v5 v11 v15 v21 v25 v29 (ix2 p q) = result X Mk W1 b1 W2 b2 Wh bh (ix2 r q) := by
  rw [pay_at, result_ix2]
  simp only [h0, h1, h5, h11, h15, h21, h25, h29]

end Cert.KernelIdeal.BlockValue

end
-- ==== Proof.ArrayValue.lean ====
/-
  The kernel's result array is `RowSpec.result` of its eight argument arrays.

  The grid has 16 points. Point t reads rows 512·t … 512·t + 511 of the input and of the mask, and the whole of
  the six weight and bias arrays as the host prefix leaves them: the weights narrowed to a shorter float format,
  which on extended reals is the identity, and each bias recast as one row, whose entry (0, n) is the bias at n.
  By `BlockValue.block_entry` entry (p, q) of what point t writes back is therefore entry (512·t + p, q) of
  `RowSpec.result`: point t writes block t of that one array. The sixteen blocks cover the 8192 rows (row r lies
  in block r / 512), so after the run the result array is `RowSpec.result` everywhere.
-/
import proofs.«414936_j89283780149841_3_alg».proof.Proof.Gen.KernelIdeal.Value
import proofs.«414936_j89283780149841_3_alg».proof.Proof.BlockValue
import Idealize.ShloMosaic.Lib.StableHlo.Run
import Idealize.ShloMosaic.Lib.ValueLayout

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.RowSpec
open Idealize.ShloMosaic.Pipeline (Dat)

variable (m : (ℓ : Loc nD τ sig) → Buf (Elt Ideal) ℓ) (ρ : Dev nD → PrngReg)

/-- What the result array is shown to hold: `RowSpec.result` of core `c`'s eight argument arrays as launched. -/
def res (c : Dev nD) : Buf (Elt Ideal) ((c : Thread nD τ).loc main_v6) :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

theorem hz : (![0, 0] : Fin 2 → Nat) = fun _ => 0 := funext fun a => by fin_cases a <;> rfl

/-- The index maps over the sixteen points: the input, the mask and the result move down one block of rows per
    point; the six weight and bias windows stay on their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The host prefix: narrowed weights and one-row biases -/

/-- Narrowing the first layer's weights changes no extended real. -/
theorem W1_host (c : Dev nD) : (V m c main_v0 : S384x512.Idx → EReal) = m ((c : Thread nD τ).loc main_arg2) := by
  dsimp only [Gen.V, Gen.hostOps0]; after_results; rfl
/-- Nor the second layer's, -/
theorem W2_host (c : Dev nD) : (V m c main_v1 : S512x10.Idx → EReal) = m ((c : Thread nD τ).loc main_arg4) := by
  dsimp only [Gen.V, Gen.hostOps0]; after_results; rfl
/-- nor the heads'. -/
theorem Wh_host (c : Dev nD) : (V m c main_v2 : S10x2316.Idx → EReal) = m ((c : Thread nD τ).loc main_arg6) := by
  dsimp only [Gen.V, Gen.hostOps0]; after_results; rfl

/-- The first bias recast as one row: its entry (0, l) is the bias at l. -/
theorem b1_host (c : Dev nD) (l : Fin 512) :
    (V m c main_v3 : S1x512.Idx → EReal) (ix2 (0 : Fin 1) l) = m ((c : Thread nD τ).loc main_arg3) (ix1 l) := by
  have e : (V m c main_v3 : S1x512.Idx → EReal) = shapeCast S1x512 (m ((c : Thread nD τ).loc main_arg3)) shapeCasts_S512_S1x512 := by
    dsimp only [Gen.V, Gen.hostOps0]; after_results; rfl
  rw [e]
  exact shapeCast_a_1a_apply _ _ 0 l
/-- The second bias likewise, -/
theorem b2_host (c : Dev nD) (k : Fin 10) :
    (V m c main_v4 : S1x10.Idx → EReal) (ix2 (0 : Fin 1) k) = m ((c : Thread nD τ).loc main_arg5) (ix1 k) := by
  have e : (V m c main_v4 : S1x10.Idx → EReal) = shapeCast S1x10 (m ((c : Thread nD τ).loc main_arg5)) shapeCasts_S10_S1x10 := by
    dsimp only [Gen.V, Gen.hostOps0]; after_results; rfl
  rw [e]
  exact shapeCast_a_1a_apply _ _ 0 k
/-- and the heads' bias. -/
theorem bh_host (c : Dev nD) (j : Fin 2316) :
    (V m c main_v5 : S1x2316.Idx → EReal) (ix2 (0 : Fin 1) j) = m ((c : Thread nD τ).loc main_arg7) (ix1 j) := by
  have e : (V m c main_v5 : S1x2316.Idx → EReal) = shapeCast S1x2316 (m ((c : Thread nD τ).loc main_arg7)) shapeCasts_S2316_S1x2316 := by
    dsimp only [Gen.V, Gen.hostOps0]; after_results; rfl
  rw [e]
  exact shapeCast_a_1a_apply _ _ 0 j

/-! ## The blocks a point reads -/

/-- Row `p` of the input block at point `t` is row 512·t + p of the input. -/
theorem x_block (c : Dev nD) (t : Fin cfg0.N) (p : Fin 512) (d : Fin 384) (h : t.val * 512 + p.val < 8192) :
    iblk m c 0 t (ix2 p d) = m ((c : Thread nD τ).loc main_arg0) (ix2 (⟨t.val * 512 + p.val, h⟩ : Fin 8192) d) := by
  show V m c main_arg0 (((cfg0.win 0).blk t).view.emb (ix2 p d)) = _
  rw [V_main_arg0]
  refine congrArg _ (funext fun a => Fin.ext ?_)
  obtain ⟨e0, e1, -⟩ := idx_facts t
  match a with
  | ⟨0, _⟩ => show win0_0.index t (0 : Fin 2) * 512 + 1 * p.val = t.val * 512 + p.val; omega
  | ⟨1, _⟩ => show win0_0.index t (1 : Fin 2) * 384 + 1 * d.val = d.val; omega

/-- Row `p` of the mask block at point `t` is row 512·t + p of the mask. -/
theorem mask_block (c : Dev nD) (t : Fin cfg0.N) (p : Fin 512) (j : Fin 2316) (h : t.val * 512 + p.val < 8192) :
    iblk m c 7 t (ix2 p j) = m ((c : Thread nD τ).loc main_arg1) (ix2 (⟨t.val * 512 + p.val, h⟩ : Fin 8192) j) := by
  show V m c main_arg1 (((cfg0.win 7).blk t).view.emb (ix2 p j)) = _
  rw [V_main_arg1]
  refine congrArg _ (funext fun a => Fin.ext ?_)
  obtain ⟨-, -, -, -, -, -, -, -, -, -, -, -, -, -, e0, e1, -, -⟩ := idx_facts t
  match a with
  | ⟨0, _⟩ => show win0_7.index t (0 : Fin 2) * 512 + 1 * p.val = t.val * 512 + p.val; omega
  | ⟨1, _⟩ => show win0_7.index t (1 : Fin 2) * 2316 + 1 * j.val = j.val; omega

/-- Window 1 holds the whole W1: its one block is the array, at every point. -/
theorem W1_block (c : Dev nD) (t : Fin cfg0.N) (a : Fin 384) (b : Fin 512) :
    iblk m c 1 t (ix2 a b) = (V m c main_v0 : S384x512.Idx → EReal) (ix2 a b) := by
  show V m c main_v0 (((cfg0.win 1).blk t).view.emb (ix2 a b)) = _
  refine congrArg _ (funext fun ax => Fin.ext ?_)
  obtain ⟨-, -, e10, e11, e20, e21, e30, e31, e40, e41, e50, e51, e60, e61, -, -, -, -⟩ := idx_facts t
  match ax with
  | ⟨0, _⟩ => show win0_1.index t (0 : Fin 2) * 384 + 1 * a.val = a.val; omega
  | ⟨1, _⟩ => show win0_1.index t (1 : Fin 2) * 512 + 1 * b.val = b.val; omega

/-- Window 2 holds the whole b1: its one block is the array, at every point. -/
theorem b1_block (c : Dev nD) (t : Fin cfg0.N) (a : Fin 1) (b : Fin 512) :
    iblk m c 2 t (ix2 a b) = (V m c main_v3 : S1x512.Idx → EReal) (ix2 a b) := by
  show V m c main_v3 (((cfg0.win 2).blk t).view.emb (ix2 a b)) = _
  refine congrArg _ (funext fun ax => Fin.ext ?_)
  obtain ⟨-, -, e10, e11, e20, e21, e30, e31, e40, e41, e50, e51, e60, e61, -, -, -, -⟩ := idx_facts t
  match ax with
  | ⟨0, _⟩ => show win0_2.index t (0 : Fin 2) * 1 + 1 * a.val = a.val; omega
  | ⟨1, _⟩ => show win0_2.index t (1 : Fin 2) * 512 + 1 * b.val = b.val; omega

/-- Window 3 holds the whole W2: its one block is the array, at every point. -/
theorem W2_block (c : Dev nD) (t : Fin cfg0.N) (a : Fin 512) (b : Fin 10) :
    iblk m c 3 t (ix2 a b) = (V m c main_v1 : S512x10.Idx → EReal) (ix2 a b) := by
  show V m c main_v1 (((cfg0.win 3).blk t).view.emb (ix2 a b)) = _
  refine congrArg _ (funext fun ax => Fin.ext ?_)
  obtain ⟨-, -, e10, e11, e20, e21, e30, e31, e40, e41, e50, e51, e60, e61, -, -, -, -⟩ := idx_facts t
  match ax with
  | ⟨0, _⟩ => show win0_3.index t (0 : Fin 2) * 512 + 1 * a.val = a.val; omega
  | ⟨1, _⟩ => show win0_3.index t (1 : Fin 2) * 10 + 1 * b.val = b.val; omega

/-- Window 4 holds the whole b2: its one block is the array, at every point. -/
theorem b2_block (c : Dev nD) (t : Fin cfg0.N) (a : Fin 1) (b : Fin 10) :
    iblk m c 4 t (ix2 a b) = (V m c main_v4 : S1x10.Idx → EReal) (ix2 a b) := by
  show V m c main_v4 (((cfg0.win 4).blk t).view.emb (ix2 a b)) = _
  refine congrArg _ (funext fun ax => Fin.ext ?_)
  obtain ⟨-, -, e10, e11, e20, e21, e30, e31, e40, e41, e50, e51, e60, e61, -, -, -, -⟩ := idx_facts t
  match ax with
  | ⟨0, _⟩ => show win0_4.index t (0 : Fin 2) * 1 + 1 * a.val = a.val; omega
  | ⟨1, _⟩ => show win0_4.index t (1 : Fin 2) * 10 + 1 * b.val = b.val; omega

/-- Window 5 holds the whole Wh: its one block is the array, at every point. -/
theorem Wh_block (c : Dev nD) (t : Fin cfg0.N) (a : Fin 10) (b : Fin 2316) :
    iblk m c 5 t (ix2 a b) = (V m c main_v2 : S10x2316.Idx → EReal) (ix2 a b) := by
  show V m c main_v2 (((cfg0.win 5).blk t).view.emb (ix2 a b)) = _
  refine congrArg _ (funext fun ax => Fin.ext ?_)
  obtain ⟨-, -, e10, e11, e20, e21, e30, e31, e40, e41, e50, e51, e60, e61, -, -, -, -⟩ := idx_facts t
  match ax with
  | ⟨0, _⟩ => show win0_5.index t (0 : Fin 2) * 10 + 1 * a.val = a.val; omega
  | ⟨1, _⟩ => show win0_5.index t (1 : Fin 2) * 2316 + 1 * b.val = b.val; omega

/-- Window 6 holds the whole bh: its one block is the array, at every point. -/
theorem bh_block (c : Dev nD) (t : Fin cfg0.N) (a : Fin 1) (b : Fin 2316) :
    iblk m c 6 t (ix2 a b) = (V m c main_v5 : S1x2316.Idx → EReal) (ix2 a b) := by
  show V m c main_v5 (((cfg0.win 6).blk t).view.emb (ix2 a b)) = _
  refine congrArg _ (funext fun ax => Fin.ext ?_)
  obtain ⟨-, -, e10, e11, e20, e21, e30, e31, e40, e41, e50, e51, e60, e61, -, -, -, -⟩ := idx_facts t
  match ax with
  | ⟨0, _⟩ => show win0_6.index t (0 : Fin 2) * 1 + 1 * a.val = a.val; omega
  | ⟨1, _⟩ => show win0_6.index t (1 : Fin 2) * 2316 + 1 * b.val = b.val; omega

/-! ## What a point writes back, the cover, and the array after the run -/

/-- Point `t` writes back block `t` of `res`. -/
theorem flushed_eq (c : Dev nD) (t : Fin cfg0.N) :
    (dats m 0 c).flushed 8 t = ((cfg0.win 8).blk t).view.read (Elt Ideal) (res m c) := by
  rw [Value.flushed8]
  unfold out0_8
  rw [View.canon_unit_zero hz]
  simp only [View.ld_unit_zero (S := S512x384) hz, View.ld_unit_zero (S := S384x512) hz, View.ld_unit_zero (S := S1x512) hz,
    View.ld_unit_zero (S := S512x10) hz, View.ld_unit_zero (S := S1x10) hz, View.ld_unit_zero (S := S10x2316) hz,
    View.ld_unit_zero (S := S1x2316) hz, View.ld_unit_zero (S := S512x2316) hz]
  funext j
  obtain ⟨p, q, rfl⟩ : ∃ (p : Fin 512) (q : Fin 2316), j = ix2 p q := ⟨j 0, j 1, eq_ix2 j⟩
  have hN : cfg0.N = 16 := N_0
  have hr : t.val * 512 + p.val < 8192 := by have := t.isLt; have := p.isLt; omega
  have hemb : ((cfg0.win 8).blk t).view.emb (ix2 p q) = ix2 (⟨t.val * 512 + p.val, hr⟩ : Fin 8192) q :=
    funext fun a => Fin.ext (by
      obtain ⟨-, -, -, -, -, -, -, -, -, -, -, -, -, -, -, -, e0, e1⟩ := idx_facts t
      match a with
      | ⟨0, _⟩ => show win0_8.index t (0 : Fin 2) * 512 + 1 * p.val = t.val * 512 + p.val; omega
      | ⟨1, _⟩ => show win0_8.index t (1 : Fin 2) * 2316 + 1 * q.val = q.val; omega)
  show k0_pay1 (F := Ideal) (iblk m c 0 t) (iblk m c 1 t) (iblk m c 2 t) (iblk m c 3 t) (iblk m c 4 t) (iblk m c 5 t)
      (iblk m c 6 t) (iblk m c 7 t) (ix2 p q) = res m c (((cfg0.win 8).blk t).view.emb (ix2 p q))
  rw [hemb]
  exact BlockValue.block_entry (iblk m c 0 t) (iblk m c 1 t) (iblk m c 2 t) (iblk m c 3 t) (iblk m c 4 t) (iblk m c 5 t)
    (iblk m c 6 t) (iblk m c 7 t)
    (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    ⟨t.val * 512 + p.val, hr⟩ p
    (fun d => x_block m c t p d hr)
    (fun d l => (W1_block m c t d l).trans (congrFun (W1_host m c) (ix2 d l)))
    (fun l => (b1_block m c t 0 l).trans (b1_host m c l))
    (fun l k => (W2_block m c t l k).trans (congrFun (W2_host m c) (ix2 l k)))
    (fun k => (b2_block m c t 0 k).trans (b2_host m c k))
    (fun k j => (Wh_block m c t k j).trans (congrFun (Wh_host m c) (ix2 k j)))
    (fun j => (bh_block m c t 0 j).trans (bh_host m c j))
    (fun j => mask_block m c t p j hr) q

/-- An index of the result array is in point `t`'s block iff each coordinate is in the block's range on its axis. -/
theorem mem_blk (t : Fin cfg0.N) (i : S8192x2316.Idx) :
    i ∈ ((cfg0.win 8).blk t).view.set ↔ ∀ a : Fin 2, win0_8.index t a * S512x2316.size a ≤ (i a).val
      ∧ (i a).val < win0_8.index t a * S512x2316.size a + S512x2316.size a := by
  show i ∈ ((View.whole main_v6).slice (win0_8.rect t)).set ↔ _
  rw [View.set_slice_whole, Rect.mem_set_unit]
  exact Iff.rfl

/-- Row `r` of the result lies in the block of point `r / 512`: the sixteen blocks cover the array. -/
theorem cover (i : S8192x2316.Idx) :
    ∃ t : Fin cfg0.N, (cfg0.win 8).flush t = true ∧ i ∈ ((cfg0.win 8).blk t).view.set := by
  have hi0 : (i 0).val < 8192 := (i 0).isLt
  have hi1 : (i 1).val < 2316 := (i 1).isLt
  have hN : cfg0.N = 16 := N_0
  have ht : (i 0).val / 512 < cfg0.N := by omega
  refine ⟨⟨(i 0).val / 512, ht⟩, flush0_8 _, ?_⟩
  rw [mem_blk]
  obtain ⟨-, -, -, -, -, -, -, -, -, -, -, -, -, -, -, -, e0, e1⟩ := idx_facts ⟨(i 0).val / 512, ht⟩
  intro a
  match a with
  | ⟨0, _⟩ =>
    show win0_8.index ⟨(i 0).val / 512, ht⟩ (0 : Fin 2) * 512 ≤ (i 0).val
      ∧ (i 0).val < win0_8.index ⟨(i 0).val / 512, ht⟩ (0 : Fin 2) * 512 + 512
    rw [e0]; dsimp only; omega
  | ⟨1, _⟩ =>
    show win0_8.index ⟨(i 0).val / 512, ht⟩ (1 : Fin 2) * 2316 ≤ (i 1).val
      ∧ (i 1).val < win0_8.index ⟨(i 0).val / 512, ht⟩ (1 : Fin 2) * 2316 + 2316
    rw [e1]; omega

/-- So after the run the result array is `res`. -/
theorem final (c : Dev nD) : (dats m 0 c).arrAt 8 cfg0.N = res m c :=
  (dats m 0 c).arrAt_eq_of_cover 8 (res m c) (fun t _ => flushed_eq m c t) cover

/-- Every weakly fair execution of the idealized kernel terminates with the result array at `res` and the eight
    arguments unchanged. -/
theorem run : θ_run defs (onTc (τ := τ) (main (F := Ideal))) ⟨m, fun _ => 0, ρ⟩ fun r => ∀ c : Dev nD,
      r.2.mem ((c : Thread nD τ).loc main_v6) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨(h c).1.trans (final m c), (h c).2⟩) (Value.run_blocks m ρ)

end Cert.KernelIdeal.ArrayValue

end
-- ==== Proof.RefValue.lean ====
/-
  The reference computes `RowSpec.result`.

  Its value is read one layer at a time. Each matrix product at an index is the sum over the contracted axis of
  the products of the operands' entries; a bias broadcast along the rows is the bias at the column; the rectifier
  is the maximum with the zero word, which is the extended real 0. At entry (r, j) the three layers are therefore
  `hiddenUnit`, `bottleneckUnit` and `headOut` of row r of the input, with the factors of every sum in the order
  `RowSpec` writes them: nothing is reordered and no law of arithmetic is used.
-/
import proofs.«414936_j89283780149841_3_alg».proof.Proof.Gen.ReferenceIdeal.Read
import proofs.«414936_j89283780149841_3_alg».proof.Proof.RowSpec

noncomputable section

namespace Cert.ReferenceIdeal.RefValue

open Cert.ReferenceIdeal Cert.ReferenceIdeal.Read Idealize.ShloMosaic Idealize.ShloMosaic.ValueIdx Cert.RowSpec

variable (x0 : (⟨S8192x384, .f32⟩ : BufTy).Contents (Elt Ideal)) (x1 : (⟨S8192x2316, .f32⟩ : BufTy).Contents (Elt Ideal))
  (x2 : (⟨S384x512, .f32⟩ : BufTy).Contents (Elt Ideal)) (x3 : (⟨S512, .f32⟩ : BufTy).Contents (Elt Ideal))
  (x4 : (⟨S512x10, .f32⟩ : BufTy).Contents (Elt Ideal)) (x5 : (⟨S10, .f32⟩ : BufTy).Contents (Elt Ideal))
  (x6 : (⟨S10x2316, .f32⟩ : BufTy).Contents (Elt Ideal)) (x7 : (⟨S2316, .f32⟩ : BufTy).Contents (Elt Ideal))

/-- The first rectified layer at (r, l) is hidden unit `l` of row `r`. -/
theorem hidden_at (r : Fin 8192) (l : Fin 512) :
    val_main_v4 (F := Ideal) x0 x2 x3 (ix2 r l)
      = hiddenUnit (fun d => x0 (ix2 r d)) (fun d l => x2 (ix2 d l)) (fun l => x3 (ix1 l)) l := by
  rw [val_main_v4_apply, val_main_v3_apply, val_main_v0_apply, val_main_v2_apply, val_main_v1_apply,
    val_main_call0_v0_apply, val_main_call0_cst_apply]
  have eb : idx_main_v1 (idx_main_v2 (ix2 r l)) = ix1 l := funext fun a => by match a with | ⟨0, _⟩ => rfl
  rw [eb, Ideal.ofBits_def, Ideal.ofBits_zero_f32, Ideal.maximumf_def, Ideal.addf_def]
  unfold hiddenUnit
  refine congrArg (fun s => max (s + x3 (ix1 l)) 0) (Finset.sum_congr rfl fun d _ => ?_)
  have el : lidx_main_v0 (ix2 r l) d = ix2 r d := funext fun a => by match a with | ⟨0, _⟩ => rfl | ⟨1, _⟩ => rfl
  have er : ridx_main_v0 (ix2 r l) d = ix2 d l := funext fun a => by match a with | ⟨0, _⟩ => rfl | ⟨1, _⟩ => rfl
  rw [el, er]

/-- The second rectified layer at (r, k) is bottleneck unit `k` of row `r`. -/
theorem bottleneck_at (r : Fin 8192) (k : Fin 10) :
    val_main_v9 (F := Ideal) x0 x2 x3 x4 x5 (ix2 r k)
      = bottleneckUnit (fun d => x0 (ix2 r d)) (fun d l => x2 (ix2 d l)) (fun l => x3 (ix1 l))
          (fun l k => x4 (ix2 l k)) (fun k => x5 (ix1 k)) k := by
  rw [val_main_v9_apply, val_main_v8_apply, val_main_v5_apply, val_main_v7_apply, val_main_v6_apply,
    val_main_call1_v0_apply, val_main_call1_cst_apply]
  have eb : idx_main_v6 (idx_main_v7 (ix2 r k)) = ix1 k := funext fun a => by match a with | ⟨0, _⟩ => rfl
  rw [eb, Ideal.ofBits_def, Ideal.ofBits_zero_f32, Ideal.maximumf_def, Ideal.addf_def]
  unfold bottleneckUnit
  refine congrArg (fun s => max (s + x5 (ix1 k)) 0) (Finset.sum_congr rfl fun l _ => ?_)
  have el : lidx_main_v5 (ix2 r k) l = ix2 r l := funext fun a => by match a with | ⟨0, _⟩ => rfl | ⟨1, _⟩ => rfl
  have er : ridx_main_v5 (ix2 r k) l = ix2 l k := funext fun a => by match a with | ⟨0, _⟩ => rfl | ⟨1, _⟩ => rfl
  rw [el, er, hidden_at]

/-- The masked heads at (r, j) are head `j` of row `r`. -/
theorem head_at (r : Fin 8192) (j : Fin 2316) :
    val_main_v14 (F := Ideal) x0 x1 x2 x3 x4 x5 x6 x7 (ix2 r j)
      = headOut (fun d => x0 (ix2 r d)) (fun d l => x2 (ix2 d l)) (fun l => x3 (ix1 l))
          (fun l k => x4 (ix2 l k)) (fun k => x5 (ix1 k)) (fun k j => x6 (ix2 k j)) (fun j => x7 (ix1 j))
          (fun j => x1 (ix2 r j)) j := by
  rw [val_main_v14_apply, val_main_v13_apply, val_main_v10_apply, val_main_v12_apply, val_main_v11_apply]
  have eb : idx_main_v11 (idx_main_v12 (ix2 r j)) = ix1 j := funext fun a => by match a with | ⟨0, _⟩ => rfl
  rw [eb, Ideal.mulf_def, Ideal.addf_def]
  unfold headOut
  refine congrArg (fun s => (s + x7 (ix1 j)) * x1 (ix2 r j)) (Finset.sum_congr rfl fun k _ => ?_)
  have el : lidx_main_v10 (ix2 r j) k = ix2 r k := funext fun a => by match a with | ⟨0, _⟩ => rfl | ⟨1, _⟩ => rfl
  have er : ridx_main_v10 (ix2 r j) k = ix2 k j := funext fun a => by match a with | ⟨0, _⟩ => rfl | ⟨1, _⟩ => rfl
  rw [el, er, bottleneck_at]

/-- The reference's last stage, as a whole array, is `RowSpec.result` of its eight arguments. -/
theorem ref_is_result :
    val_main_v14 (F := Ideal) x0 x1 x2 x3 x4 x5 x6 x7 = result x0 x1 x2 x3 x4 x5 x6 x7 := by
  funext i
  obtain ⟨r, j, rfl⟩ : ∃ (r : Fin 8192) (j : Fin 2316), i = ix2 r j := ⟨i 0, i 1, eq_ix2 i⟩
  rw [head_at, result_ix2]

end Cert.ReferenceIdeal.RefValue

end
-- ==== Proof.lean ====
/-
  A three-layer perceptron with 2316 masked output heads, computed 512 rows at a time by a kernel, against the
  same network written as three whole matrix products.

  For each of the 8192 rows both programs compute
      out (r, j) = (∑ k, f_r k · Wh (k, j) + bh j) · mask (r, j),
      f_r k      = max (∑ l, h_r l · W2 (l, k) + b2 k) 0,
      h_r l      = max (∑ d, x (r, d) · W1 (d, l) + b1 l) 0.
  The kernel narrows the weights and each layer's input to a shorter float format before every product and
  accumulates each product into a zero block; the reference multiplies the arrays as given and rectifies by a
  maximum with a broadcast zero. On extended reals a change of float format is the identity and adding to zero is
  the identity, so both are this one function, sum for sum and factor for factor: no sum is reordered, and the
  precondition that the inputs are finite is never opened.

  `RowSpec` states the function; `RefValue` shows the reference's last stage is it; `BlockValue` shows entry
  (p, q) of what the kernel body stores is its entry at the block's row p; `ArrayValue` shows that point t of the
  grid writes back block t of it, that the sixteen blocks cover the array, and hence the kernel's run. The three
  frames are the programs' runs with the result dropped; nothing was rewritten in idealizing the kernel, so
  that conjunct is trivial.
-/
import proofs.«414936_j89283780149841_3_alg».proof.Defs
import proofs.«414936_j89283780149841_3_alg».proof.Proof.Gen.Kernel
import proofs.«414936_j89283780149841_3_alg».proof.Proof.Gen.Kernel.Skeleton
import proofs.«414936_j89283780149841_3_alg».proof.Proof.Gen.Kernel.Launch
import proofs.«414936_j89283780149841_3_alg».proof.Proof.Gen.Kernel.Points
import proofs.«414936_j89283780149841_3_alg».proof.Proof.Gen.Kernel.Frame
import proofs.«414936_j89283780149841_3_alg».proof.Proof.Gen.KernelIdeal
import proofs.«414936_j89283780149841_3_alg».proof.Proof.Gen.KernelIdeal.Skeleton
import proofs.«414936_j89283780149841_3_alg».proof.Proof.Gen.KernelIdeal.Launch
import proofs.«414936_j89283780149841_3_alg».proof.Proof.Gen.KernelIdeal.Points
import proofs.«414936_j89283780149841_3_alg».proof.Proof.Gen.KernelIdeal.Frame
import proofs.«414936_j89283780149841_3_alg».proof.Proof.Gen.ReferenceIdeal
import proofs.«414936_j89283780149841_3_alg».proof.Proof.Gen.KernelIdeal.Value
import proofs.«414936_j89283780149841_3_alg».proof.Proof.Gen.ReferenceIdeal.Run
import proofs.«414936_j89283780149841_3_alg».proof.Proof.Gen.ReferenceIdeal.Read
import proofs.«414936_j89283780149841_3_alg».proof.Proof.Gen.Pre_finite_inputs
import proofs.«414936_j89283780149841_3_alg».proof.Proof.ArrayValue
import proofs.«414936_j89283780149841_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the eight arguments the kernel ends with its result array at `RowSpec.result` of
    its arguments (`ArrayValue.run`) and the reference with its result at `RowSpec.result` of its own
    (`RefValue.ref_is_result`): the same array. -/
theorem algebraic : Cert.algebraic_KernelIdeal_ReferenceIdeal := by
  intro m ρ m' ρ' _ hagree
  refine ⟨fun c => Cert.KernelIdeal.ArrayValue.res m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_is_result,
    (hagree c).1, (hagree c).2.1, (hagree c).2.2.1, (hagree c).2.2.2.1, (hagree c).2.2.2.2.1,
    (hagree c).2.2.2.2.2.1, (hagree c).2.2.2.2.2.2.1, (hagree c).2.2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
